-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x10000 : Shape := ⟨2, ![256, 10000]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S256x10000 : S_.BroadcastsInDim S256x10000 (![] : Fin 0 → Fin S256x10000.rank)
  reducesTo_S256x10000_S_d0_1 : S256x10000.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S256x10000 .f32) (main_arg1 : FVec F S10000x10000 .f32) (main_arg2 : FVec F S256x256 .f32) (main_arg3 : FVec F S256 .f32) : IVec S_ 1 :=
  let main_v0 : FVec F S256x10000 .f32 := Host.absf main_arg0
  let main_cst : FVec F S_ .f32 := constant S_ .f32 0x7F800000#32
  let main_v1 : FVec F S256x10000 .f32 := broadcastInDim S256x10000 ![] bcast_S_S256x10000 main_cst
  let main_v2 : IVec S256x10000 1 := cmpf .olt main_v0 main_v1
  let main_c : IVec S_ 1 := constantI S_ 1 1#1
  let main_v3 : IVec S_ 1 := (fun x v => Host.reduce IntOp.andi x v reducesTo_S256x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S256x10000 : Shape := ⟨2, ![256, 10000]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S10000x256 : Shape := ⟨2, ![10000, 256]⟩

abbrev nBuf : Space → Nat
  | .hbm => 6
  | .vmem => 8
  | .smem => 0
  | _ => 0

abbrev bufTy : (tb : Table) → Fin (tcTables nBuf tb) → BufTy
  | .hbm, ⟨0, _⟩ => ⟨S256x10000, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S256x10000, .f32⟩
  | .local _ .vmem, ⟨0, _⟩ => ⟨S256x10000, .f32⟩
  | .local _ .vmem, ⟨1, _⟩ => ⟨S256x256, .f32⟩
  | .local _ .vmem, ⟨2, _⟩ => ⟨S256x10000, .f32⟩
  | .local _ .vmem, ⟨3, _⟩ => ⟨S256x10000, .f32⟩
  | .local _ .vmem, ⟨4, _⟩ => ⟨S1x256, .f32⟩
  | .local _ .vmem, ⟨5, _⟩ => ⟨S256x256, .f32⟩
  | .local _ .vmem, ⟨6, _⟩ => ⟨S256x256, .f32⟩
  | .local _ .vmem, ⟨7, _⟩ => ⟨S10000x256, .bf16⟩
  | _, _ => ⟨S256x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S256x10000_S256x10000_0_0 : ∀ a, (![0, 0] : Fin 2 → Nat) a + S256x10000.size a ≤ S256x10000.size a
  h_S256x10000 : 0 < S256x10000.numel
  bitsLt_bf16_f32 : FTy.bits .bf16 < FTy.bits .f32
  transposes_S256x10000_p1_0_S10000x256 : S256x10000.Transposes [1, 0] S10000x256
  inb_S256x256_S256x256_0_0 : ∀ a, (![0, 0] : Fin 2 → Nat) a + S256x256.size a ≤ S256x256.size a
  h_S256x256 : 0 < S256x256.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  transposes_S256x256_p1_0_S256x256 : S256x256.Transposes [1, 0] S256x256
  dot_S10000x256_S256x256_S10000x256_1_0_0_1_n_n_wf : DotDims.WF S10000x256 S256x256 S10000x256 [1] [0] [0] [1] [] []
  dot_S256x10000_S10000x256_S256x256_1_0_0_1_n_n_wf : DotDims.WF S256x10000 S10000x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x10000.size a ≤ S256x10000.size a
  hwx0_0 : ∀ i : grid0.Coords, EltTy.bits .f32 = 32 ∨ (Rect.block (s := S256x10000) S256x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x10000.size a < S10000x10000.size a
  hwx0_2 : ∀ i : grid0.Coords, EltTy.bits .f32 = 32 ∨ (Rect.unit (s := S10000x10000) (fun a => cc0_transform_2 i a * S256x10000.size a) (fun a => (Pipeline.Clip.of (cc0_transform_2 i a) (S256x10000.size a) (S10000x10000.size a)).extent (S256x10000.size a)) fun a => Pipeline.Clip.inb (Pipeline.Clip.ok_of (hstart0_2 i a))).WholeWords (EltTy.packing .f32)
  hwxs0_2 : ∀ i : grid0.Coords, EltTy.bits .f32 = 32 ∨ (Rect.unit (s := S256x10000) (fun _ => 0) (fun a => (Pipeline.Clip.of (cc0_transform_2 i a) (S256x10000.size a) (S10000x10000.size a)).extent (S256x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x256.size a < S256x10000.size a
  hwx0_4 : ∀ i : grid0.Coords, EltTy.bits .f32 = 32 ∨ (Rect.unit (s := S256x10000) (fun a => cc0_transform_4 i a * S256x256.size a) (fun a => (Pipeline.Clip.of (cc0_transform_4 i a) (S256x256.size a) (S256x10000.size a)).extent (S256x256.size a)) fun a => Pipeline.Clip.inb (Pipeline.Clip.ok_of (hstart0_4 i a))).WholeWords (EltTy.packing .f32)
  hwxs0_4 : ∀ i : grid0.Coords, EltTy.bits .f32 = 32 ∨ (Rect.unit (s := S256x256) (fun _ => 0) (fun a => (Pipeline.Clip.of (cc0_transform_4 i a) (S256x256.size a) (S256x10000.size a)).extent (S256x256.size a)) fun a => (Nat.zero_add _).trans_le (Pipeline.Clip.extent_le (Pipeline.Clip.ok_of (hstart0_4 i a)))).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S256x10000_S10000x256_S256x256_1_0_0_1_n_n : DotDims S256x10000 S10000x256 S256x256 where
  lhsContracting := [1]
  rhsContracting := [0]
  lhsNonContracting := [0]
  rhsNonContracting := [1]
  lhsBatch := []
  rhsBatch := []
  wf := dot_S256x10000_S10000x256_S256x256_1_0_0_1_n_n_wf

abbrev win0_0 : Pipeline.Window sig grid0 :=
  Pipeline.Window.ofSpec (Memref.whole main_arg0) S256x10000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S256x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S256x256.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x10000 : Shape := ⟨2, ![256, 10000]⟩
abbrev S10000x10000 : Shape := ⟨2, ![10000, 10000]⟩
abbrev S256x256 : Shape := ⟨2, ![256, 256]⟩
abbrev S256 : Shape := ⟨1, ![256]⟩
abbrev S10000x256 : Shape := ⟨2, ![10000, 256]⟩
abbrev S1x256 : Shape := ⟨2, ![1, 256]⟩

abbrev nBuf : Space → Nat
  | .hbm => 11
  | .vmem => 0
  | .smem => 0
  | _ => 0

abbrev bufTy : (tb : Table) → Fin (tcTables nBuf tb) → BufTy
  | .hbm, ⟨0, _⟩ => ⟨S256x10000, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S256x10000, .f32⟩
  | _, _ => ⟨S256x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S256x10000_S10000x256_1_0 : S256x10000.Transposes [1, 0] S10000x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S10000x256_S256x10000_1_0 : S10000x256.Transposes [1, 0] S256x10000
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.BodyRunBits.lean ====
/-
  The kernel body as a Hoare triple over whole staging memrefs, in its two control cases.

  The body reads four input buffers (features, weights, an adjacency row block, the bias row), one scratch buffer
  (node-by-feature, carried from point to point) and writes one output buffer. At the grid's first point it first
  overwrites the scratch with the product of the transposed features and the weights; at every point it then
  overwrites the output buffer with the transposed sum of (adjacency block) × (scratch) and the broadcast bias row.
  Both stores are unmasked and through the whole-shape rectangle, so what each buffer holds afterwards is the stored
  value itself, whatever it held before; every load is through the whole-shape rectangle of a whole memref, so it
  reads the buffer's contents. The inputs are left as found.
-/
import proofs.«108030_g77214922048112_cont_9to1_m_162_6_alg».proof.Proof.Gen.Kernel.Launch
import proofs.«108030_g77214922048112_cont_9to1_m_162_6_alg».proof.Proof.Gen.Kernel.Skeleton
import proofs.«108030_g77214922048112_cont_9to1_m_162_6_alg».proof.Proof.Gen.Kernel.Points
import proofs.«108030_g77214922048112_cont_9to1_m_162_6_alg».proof.Proof.Gen.Kernel.Frame
import Idealize.ShloMosaic.Lib.Pipeline.FrameBody
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's one branch (taken at the grid's first point only). -/
abbrev condFirst (i : grid0.Coords) : Prop := (Scalar.cmpi .ne (Scalar.extui (Scalar.cmpi .eq (BitVec.ofNat 32 (i 0).val) 0#32)) 0#32) = 1#1

/-- Reading back, through any view, one unmasked store through the whole-shape rectangle at zero offsets gives the
    stored value, whatever was there before. -/
theorem read_store_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle at zero offsets of a whole memref holding `X` reads `X`. -/
theorem readAt_whole {sig' : RefSig} {κ : Kind} {sp : Space} {S : Shape} {e : EltTy} {Val : EltTy → Type}
    (M : Memref sig' κ sp S e) (hM : M.IsWhole) (X : S.Idx → Val e) {off : Fin S.rank → Nat} (h : off = fun _ => 0)
    (inb : ∀ a, off a + S.size a ≤ S.size a) :
    M.view.readAt Val (Rect.unit off S.size inb).toLoadRect (hM.unread X) = X := by
  rw [View.readAt_eq_ld, hM.read_unread, View.ld_unit_zero h]

theorem hz2 : (![0, 0] : Fin 2 → Nat) = fun _ => 0 := funext fun a => by fin_cases a <;> rfl

/-- The body away from the first point, on any whole memrefs: the product block is recomputed from the adjacency
    block, the carried scratch and the bias row; everything else is left as found. -/
theorem body_rest (c : Dev nD) (i : grid0.Coords) (hc : ¬condFirst i)
    (arg1 : Memref sig .tc .vmem S256x10000 .f32) (harg1 : arg1.IsWhole) (arg2 : Memref sig .tc .vmem S256x256 .f32) (harg2 : arg2.IsWhole)
    (arg3 : Memref sig .tc .vmem S256x10000 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S10000x256 .bf16) (harg6 : arg6.IsWhole)
    (X0 : Vec F S256x10000 .f32) (X1 : Vec F S256x256 .f32) (X2 : Vec F S256x10000 .f32) (X3 : Vec F S1x256 .f32)
    (X4 : Vec F S256x256 .f32) (Xs : Vec F S10000x256 .bf16) (E : Set ℕ) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4 ∗ owns (c : Thread nD τ) arg6 fullShare Xs
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 X2 Xs X3) ∗ owns (c : Thread nD τ) arg6 fullShare Xs) -∗ K ⟨⟩))
      ⊢ wp frame (wpE (defs₀ (F := F)) Variants.none c none) E (cc0__fused i arg1 harg1 arg2 harg2 arg3 harg3 arg4 harg4 arg5 harg5 arg6 harg6) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    rw [read_store_whole _ _ hz2, readAt_whole arg3 harg3 X2 hz2, readAt_whole arg4 harg4 X3 hz2, readAt_whole arg6 harg6 Xs hz2]
  · iexists _; isplitr; · ipureintro; exact hfs
    iexact HS

/-- The body at the first point, on any whole memrefs: the scratch is first overwritten with the feature product,
    then the product block is computed from it. -/
theorem body_first (c : Dev nD) (i : grid0.Coords) (hc : condFirst i)
    (arg1 : Memref sig .tc .vmem S256x10000 .f32) (harg1 : arg1.IsWhole) (arg2 : Memref sig .tc .vmem S256x256 .f32) (harg2 : arg2.IsWhole)
    (arg3 : Memref sig .tc .vmem S256x10000 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S10000x256 .bf16) (harg6 : arg6.IsWhole)
    (X0 : Vec F S256x10000 .f32) (X1 : Vec F S256x256 .f32) (X2 : Vec F S256x10000 .f32) (X3 : Vec F S1x256 .f32)
    (X4 : Vec F S256x256 .f32) (Xs : Vec F S10000x256 .bf16) (E : Set ℕ) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4 ∗ owns (c : Thread nD τ) arg6 fullShare Xs
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 X2 (k0_pay1 X0 X1) X3)
            ∗ owns (c : Thread nD τ) arg6 fullShare (k0_pay1 X0 X1)) -∗ K ⟨⟩))
      ⊢ wp frame (wpE (defs₀ (F := F)) Variants.none c none) E (cc0__fused i arg1 harg1 arg2 harg2 arg3 harg3 arg4 harg4 arg5 harg5 arg6 harg6) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    sl_unfold_words
    rw [read_store_whole _ _ hz2, View.readCov_unit_zero _ hz2, readAt_whole arg3 harg3 X2 hz2, readAt_whole arg4 harg4 X3 hz2,
      readAt_whole arg1 harg1 X0 hz2, readAt_whole arg2 harg2 X1 hz2]
  · iexists _; isplitr
    swap; · iexact HS
    ipureintro
    sl_unfold_words
    rw [read_store_whole _ _ hz2, readAt_whole arg1 harg1 X0 hz2, readAt_whole arg2 harg2 X1 hz2]

end Cert.Kernel.Body

end
-- ==== Proof.FrameBits.lean ====
/-
  The word-level program runs and leaves its four arguments unchanged.

  Nothing is claimed here of the result array: at the word level the matrix product's entries are not stated
  independently of the rows the last adjacency fetch leaves past the array's end, so what the body leaves in the
  output buffer is not named; any contents may be written back. The scratch buffer holds some contents before and
  after every point, which is all the body's run needs of it. The four inputs are read and never written: the three
  whole-array windows hold their arrays at every point, the adjacency buffer its block on the rows inside the array.
-/
import proofs.«108030_g77214922048112_cont_9to1_m_162_6_alg».proof.Proof.BodyRunBits

set_option maxRecDepth 16384

noncomputable section

namespace Cert.Kernel.Forget

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents after the body are not named: the result's. -/
def fgt : Fin cfg0.W → Bool := fun w => match w with
  | ⟨0, _⟩ => false
  | ⟨1, _⟩ => false
  | ⟨2, _⟩ => false
  | ⟨3, _⟩ => false
  | ⟨4, _⟩ => true

/-- The adjacency buffer after the fetch at point `t`, the rows past the array's end at a representative. -/
def adjBuf (c : Dev nD) (t : Fin cfg0.N) : S256x10000.Idx → Elt F .f32 :=
  win0_2.fill (grid0.coords t) (fun _ => Scalar.ofBits .f32 0#32) (iblk m c 2 t)

/-- The scratch operand, a whole scoped buffer. -/
abbrev scM : Memref sig .tc .vmem S10000x256 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data: the arrays as the region finds them; after the body each input buffer at its block; the result's
    buffer unnamed; the invariant constant (the scratch at some contents). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBuf m c t
    | ⟨3, _⟩ => iblk m c 3 t
    | ⟨4, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = adjBuf m c t := by dsimp only [dats]
theorem after3 (c : Dev nD) (t : Fin cfg0.N) : (dats m 0 c).after 3 t = iblk m c 3 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before3 (c : Dev nD) (t : Fin cfg0.N) (d) : (dats m 0 c).before 3 t d = iblk m c 3 t :=
  before0_3_of m (dats m 0 c) (A_eq m c 3) (after3 m c) t d
theorem before2 (c : Dev nD) (t : Fin cfg0.N) (d) :
    (dats m 0 c).before 2 t d = win0_2.fill (grid0.coords t) d (iblk m c 2 t) := by
  rw [(dats m 0 c).before_fetched 2 t (fetch0_2 t) d]; unfold Dat.fetched Dat.blockOf iblk; rw [A_eq]

/-- What the body is called with at point `t` (the result's buffer at anything), -/
def bodyPre (c : Dev nD) (t : Fin cfg0.N) : sProp 𝕄 :=
  iprop((dats m 0 c).Φ t.castSucc ∗ (dats m 0 c).owesAt () t.castSucc
    ∗ (∃ d, owns (c : Thread nD τ) (stage0_0 (cfg0.slots t 0)) fullShare ((dats m 0 c).before 0 t d))
    ∗ (∃ d, owns (c : Thread nD τ) (stage0_1 (cfg0.slots t 1)) fullShare ((dats m 0 c).before 1 t d))
    ∗ (∃ d, owns (c : Thread nD τ) (stage0_2 (cfg0.slots t 2)) fullShare ((dats m 0 c).before 2 t d))
    ∗ (∃ d, owns (c : Thread nD τ) (stage0_3 (cfg0.slots t 3)) fullShare ((dats m 0 c).before 3 t d))
    ∗ (∃ X, owns (c : Thread nD τ) (stage0_4 (cfg0.slots t 4)) fullShare X))

/-- and what it returns (the result's buffer at anything). -/
def bodyPost (c : Dev nD) (t : Fin cfg0.N) : sProp 𝕄 :=
  iprop((dats m 0 c).Φ t.succ ∗ (dats m 0 c).owesAt () t.succ
    ∗ owns (c : Thread nD τ) (stage0_0 (cfg0.slots t 0)) fullShare ((dats m 0 c).after 0 t)
    ∗ owns (c : Thread nD τ) (stage0_1 (cfg0.slots t 1)) fullShare ((dats m 0 c).after 1 t)
    ∗ (∃ d, owns (c : Thread nD τ) (stage0_2 (cfg0.slots t 2)) fullShare
        (win0_2.fill (grid0.coords t) d (win0_2.cut (grid0.coords t) ((dats m 0 c).after 2 t))))
    ∗ owns (c : Thread nD τ) (stage0_3 (cfg0.slots t 3)) fullShare ((dats m 0 c).after 3 t)
    ∗ (∃ X, owns (c : Thread nD τ) (stage0_4 (cfg0.slots t 4)) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [after0, after1, after2, after3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  have h2 : ∀ d2, win0_2.fill (grid0.coords t) d2 (win0_2.cut (grid0.coords t) (adjBuf m c t))
      = win0_2.fill (grid0.coords t) d2 (iblk m c 2 t) := fun d2 => by
    unfold adjBuf; rw [Window.cut_fill]
  by_cases hz : condFirst (grid0.coords t)
  · iintro ⟨⟨⟨%ds, HS⟩, Hg⟩, Ho, ⟨%d0, H0⟩, ⟨%d1, H1⟩, ⟨%d2, H2⟩, ⟨%d3, H3⟩, ⟨%d4, H4⟩⟩
    iapply (body_first (F := F) c (grid0.coords t) hz _ _ _ _ _ _ _ _ _ _ scM (Memref.isWhole_whole _)
      (iblk m c 0 t) (iblk m c 1 t) (win0_2.fill (grid0.coords t) d2 (iblk m c 2 t)) (iblk m c 3 t) d4 ds Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; iexact HS
      · iexact Hg
    isplitl [Ho]; · iexact Ho
    isplitl [H0]; · iexact H0
    isplitl [H1]; · iexact H1
    isplitl [H2]; · iexists d2; rw [h2 d2]; iexact H2
    isplitl [H3]; · iexact H3
    iexists _; iexact H4
  · iintro ⟨⟨⟨%ds, HS⟩, Hg⟩, Ho, ⟨%d0, H0⟩, ⟨%d1, H1⟩, ⟨%d2, H2⟩, ⟨%d3, H3⟩, ⟨%d4, H4⟩⟩
    iapply (body_rest (F := F) c (grid0.coords t) hz _ _ _ _ _ _ _ _ _ _ scM (Memref.isWhole_whole _)
      (iblk m c 0 t) (iblk m c 1 t) (win0_2.fill (grid0.coords t) d2 (iblk m c 2 t)) (iblk m c 3 t) d4 ds Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; iexact HS
      · iexact Hg
    isplitl [Ho]; · iexact Ho
    isplitl [H0]; · iexact H0
    isplitl [H1]; · iexact H1
    isplitl [H2]; · iexists d2; rw [h2 d2]; iexact H2
    isplitl [H3]; · iexact H3
    iexists _; iexact H4

/-- The body obligation at every point, the result's window forgotten. -/
theorem body_obligation (c : Dev nD) : BodyObligationLoose (dats m 0 c) (defs₀ (F := F)) Variants.none () Set.univ fgt := fun t => by
  rw [bigSep_W0, bigSep_W0]
  exact sound_body m c t

/-- The proof data read relationally, the result's window constrained by nothing. -/
abbrev rdats (c : Dev nD) : RDat τ (Elt F) Unit ℕ (UR sig nD τ) ℕ cfg0 c := (dats m 0 c).toRForget fgt

set_option backward.isDefEq.respectTransparency.types false in
/-- Every weakly fair execution of @main terminates; each input array ends at its entry contents, the result array at
    some contents, every other unscoped buffer as the region found it. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame: the program runs and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((A_eq m c 0).trans (V_main_arg0 m c)),
      (Pipeline.RDat.FramePost.arr_in h c 2 rfl).trans ((A_eq m c 2).trans (V_main_arg1 m c)),
      (Pipeline.RDat.FramePost.arr_in h c 1 rfl).trans ((A_eq m c 1).trans (V_main_arg2 m c)),
      ((h c).2 main_arg3 (Pipeline.mem_restRefs_of main_arg3 (by decide) (by decide))).trans (V_main_arg3 m c)⟩) (run_main m ρ)

end Cert.Kernel.Forget

end
-- ==== Proof.BodyRun.lean ====
/-
  The kernel body as a Hoare triple over whole staging memrefs, in its two control cases.

  The body reads four input buffers (features, weights, an adjacency row block, the bias row), one scratch buffer
  (node-by-feature, carried from point to point) and writes one output buffer. At the grid's first point it first
  overwrites the scratch with the product of the transposed features and the weights; at every point it then
  overwrites the output buffer with the transposed sum of (adjacency block) × (scratch) and the broadcast bias row.
  Both stores are unmasked and through the whole-shape rectangle, so what each buffer holds afterwards is the stored
  value itself, whatever it held before; every load is through the whole-shape rectangle of a whole memref, so it
  reads the buffer's contents. The inputs are left as found.
-/
import proofs.«108030_g77214922048112_cont_9to1_m_162_6_alg».proof.Proof.Gen.KernelIdeal.Launch
import proofs.«108030_g77214922048112_cont_9to1_m_162_6_alg».proof.Proof.Gen.KernelIdeal.Skeleton
import proofs.«108030_g77214922048112_cont_9to1_m_162_6_alg».proof.Proof.Gen.KernelIdeal.Points
import proofs.«108030_g77214922048112_cont_9to1_m_162_6_alg».proof.Proof.Gen.KernelIdeal.Frame
import Idealize.ShloMosaic.Lib.Pipeline.FrameBody
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's one branch (taken at the grid's first point only). -/
abbrev condFirst (i : grid0.Coords) : Prop := (Scalar.cmpi .ne (Scalar.extui (Scalar.cmpi .eq (BitVec.ofNat 32 (i 0).val) 0#32)) 0#32) = 1#1

/-- Reading back, through any view, one unmasked store through the whole-shape rectangle at zero offsets gives the
    stored value, whatever was there before. -/
theorem read_store_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle at zero offsets of a whole memref holding `X` reads `X`. -/
theorem readAt_whole {sig' : RefSig} {κ : Kind} {sp : Space} {S : Shape} {e : EltTy} {Val : EltTy → Type}
    (M : Memref sig' κ sp S e) (hM : M.IsWhole) (X : S.Idx → Val e) {off : Fin S.rank → Nat} (h : off = fun _ => 0)
    (inb : ∀ a, off a + S.size a ≤ S.size a) :
    M.view.readAt Val (Rect.unit off S.size inb).toLoadRect (hM.unread X) = X := by
  rw [View.readAt_eq_ld, hM.read_unread, View.ld_unit_zero h]

theorem hz2 : (![0, 0] : Fin 2 → Nat) = fun _ => 0 := funext fun a => by fin_cases a <;> rfl

/-- The body away from the first point, on any whole memrefs: the product block is recomputed from the adjacency
    block, the carried scratch and the bias row; everything else is left as found. -/
theorem body_rest (c : Dev nD) (i : grid0.Coords) (hc : ¬condFirst i)
    (arg1 : Memref sig .tc .vmem S256x10000 .f32) (harg1 : arg1.IsWhole) (arg2 : Memref sig .tc .vmem S256x256 .f32) (harg2 : arg2.IsWhole)
    (arg3 : Memref sig .tc .vmem S256x10000 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S10000x256 .bf16) (harg6 : arg6.IsWhole)
    (X0 : Vec F S256x10000 .f32) (X1 : Vec F S256x256 .f32) (X2 : Vec F S256x10000 .f32) (X3 : Vec F S1x256 .f32)
    (X4 : Vec F S256x256 .f32) (Xs : Vec F S10000x256 .bf16) (E : Set ℕ) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4 ∗ owns (c : Thread nD τ) arg6 fullShare Xs
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 X2 Xs X3) ∗ owns (c : Thread nD τ) arg6 fullShare Xs) -∗ K ⟨⟩))
      ⊢ wp frame (wpE (defs₀ (F := F)) Variants.none c none) E (cc0__fused i arg1 harg1 arg2 harg2 arg3 harg3 arg4 harg4 arg5 harg5 arg6 harg6) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    rw [read_store_whole _ _ hz2, readAt_whole arg3 harg3 X2 hz2, readAt_whole arg4 harg4 X3 hz2, readAt_whole arg6 harg6 Xs hz2]
  · iexists _; isplitr; · ipureintro; exact hfs
    iexact HS

/-- The body at the first point, on any whole memrefs: the scratch is first overwritten with the feature product,
    then the product block is computed from it. -/
theorem body_first (c : Dev nD) (i : grid0.Coords) (hc : condFirst i)
    (arg1 : Memref sig .tc .vmem S256x10000 .f32) (harg1 : arg1.IsWhole) (arg2 : Memref sig .tc .vmem S256x256 .f32) (harg2 : arg2.IsWhole)
    (arg3 : Memref sig .tc .vmem S256x10000 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S10000x256 .bf16) (harg6 : arg6.IsWhole)
    (X0 : Vec F S256x10000 .f32) (X1 : Vec F S256x256 .f32) (X2 : Vec F S256x10000 .f32) (X3 : Vec F S1x256 .f32)
    (X4 : Vec F S256x256 .f32) (Xs : Vec F S10000x256 .bf16) (E : Set ℕ) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4 ∗ owns (c : Thread nD τ) arg6 fullShare Xs
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 X2 (k0_pay1 X0 X1) X3)
            ∗ owns (c : Thread nD τ) arg6 fullShare (k0_pay1 X0 X1)) -∗ K ⟨⟩))
      ⊢ wp frame (wpE (defs₀ (F := F)) Variants.none c none) E (cc0__fused i arg1 harg1 arg2 harg2 arg3 harg3 arg4 harg4 arg5 harg5 arg6 harg6) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    sl_unfold_words
    rw [read_store_whole _ _ hz2, View.readCov_unit_zero _ hz2, readAt_whole arg3 harg3 X2 hz2, readAt_whole arg4 harg4 X3 hz2,
      readAt_whole arg1 harg1 X0 hz2, readAt_whole arg2 harg2 X1 hz2]
  · iexists _; isplitr
    swap; · iexact HS
    ipureintro
    sl_unfold_words
    rw [read_store_whole _ _ hz2, readAt_whole arg1 harg1 X0 hz2, readAt_whole arg2 harg2 X1 hz2]

end Cert.KernelIdeal.Body

end
-- ==== Proof.PayAt.lean ====
/-
  The two values the kernel body stores, read at one index over the extended reals.
-/
import proofs.«108030_g77214922048112_cont_9to1_m_162_6_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen
open Idealize.ShloMosaic Idealize.ShloMosaic.ValueIdx

/-! ## The first product's operand indices: output (node, feature), contraction over the input features -/

/-- The left operand is read on its row axis at the output's row. -/
theorem lhs1_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
/-- The left operand is read on its column axis at the contraction coordinate. -/
theorem lhs1_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
/-- The right operand is read on its row axis at the contraction coordinate. -/
theorem rhs1_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
/-- The right operand is read on its column axis at the output's column. -/
theorem rhs1_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-! ## The second product's operand indices: output (block row, feature), contraction over the nodes -/

/-- The left operand is read on its row axis at the output's row. -/
theorem lhs2_0 (i : S256x256.Idx) (q : dot_S256x10000_S10000x256_S256x256_1_0_0_1_n_n.contr.Idx) :
    (dot_S256x10000_S10000x256_S256x256_1_0_0_1_n_n.lhsIdx i q 0).val = (i 0).val := by
  unfold DotDims.lhsIdx
  rw [dif_neg (show ¬(0 : Fin S256x10000.rank) ∈ dot_S256x10000_S10000x256_S256x256_1_0_0_1_n_n.lhsBatch by decide), dif_pos (show (0 : Fin S256x10000.rank) ∈ dot_S256x10000_S10000x256_S256x256_1_0_0_1_n_n.lhsNonContracting by decide)]
  rfl
/-- The left operand is read on its column axis at the contraction coordinate. -/
theorem lhs2_1 (i : S256x256.Idx) (q : dot_S256x10000_S10000x256_S256x256_1_0_0_1_n_n.contr.Idx) :
    (dot_S256x10000_S10000x256_S256x256_1_0_0_1_n_n.lhsIdx i q 1).val = (q ⟨0, by decide⟩).val :=
  dot_S256x10000_S10000x256_S256x256_1_0_0_1_n_n.lhsIdx_val_of_single rfl i q
/-- The right operand is read on its row axis at the contraction coordinate. -/
theorem rhs2_0 (i : S256x256.Idx) (q : dot_S256x10000_S10000x256_S256x256_1_0_0_1_n_n.contr.Idx) :
    (dot_S256x10000_S10000x256_S256x256_1_0_0_1_n_n.rhsIdx i q 0).val = (q ⟨0, by decide⟩).val :=
  dot_S256x10000_S10000x256_S256x256_1_0_0_1_n_n.rhsIdx_val_of_single rfl i q
/-- The right operand is read on its column axis at the output's column. -/
theorem rhs2_1 (i : S256x256.Idx) (q : dot_S256x10000_S10000x256_S256x256_1_0_0_1_n_n.contr.Idx) :
    (dot_S256x10000_S10000x256_S256x256_1_0_0_1_n_n.rhsIdx i q 1).val = (i 1).val := by
  unfold DotDims.rhsIdx
  rw [dif_neg (show ¬(1 : Fin S10000x256.rank) ∈ dot_S256x10000_S10000x256_S256x256_1_0_0_1_n_n.rhsBatch by decide), dif_pos (show (1 : Fin S10000x256.rank) ∈ dot_S256x10000_S10000x256_S256x256_1_0_0_1_n_n.rhsNonContracting by decide)]
  rfl

/-- The value stored into the carried scratch: node `k`, output feature `f` of the transposed features times the weights. -/
theorem pay1_apply (X : Vec Ideal S256x10000 .f32) (W : Vec Ideal S256x256 .f32) (k : Fin 10000) (f : Fin 256) :
    k0_pay1 (F := Ideal) X W (ix2 k f) = ∑ c : Fin 256, X (ix2 c k) * W (ix2 c f) := by
  unfold k0_pay1
  rw [shapeCast_self]
  refine (truncf_apply (φ := .f32) (ψ := .bf16) _ bitsLt_bf16_f32 (ix2 k f)).trans ?_
  simp only [matmul]
  refine (Ideal.matmul_constant_zero_apply (φ₁ := .bf16) (φ₂ := .bf16) dot_S10000x256_S256x256_S10000x256_1_0_0_1_n_n none _ _ (ix2 k f)).trans ?_
  rw [← Equiv.sum_comp (contrEquiv1 dot_S10000x256_S256x256_S10000x256_1_0_0_1_n_n 256 rfl rfl).symm]
  refine Finset.sum_congr rfl fun c _ => ?_
  have hc := contrEquiv1_symm_val dot_S10000x256_S256x256_S10000x256_1_0_0_1_n_n 256 rfl rfl c
  have el : dot_S10000x256_S256x256_S10000x256_1_0_0_1_n_n.lhsIdx (ix2 k f) ((contrEquiv1 dot_S10000x256_S256x256_S10000x256_1_0_0_1_n_n 256 rfl rfl).symm c) = ix2 k c := funext fun a => Fin.ext (by
    match a with
    | ⟨0, _⟩ => exact lhs1_0 _ _
    | ⟨1, _⟩ => exact (lhs1_1 _ _).trans hc)
  have er : dot_S10000x256_S256x256_S10000x256_1_0_0_1_n_n.rhsIdx (ix2 k f) ((contrEquiv1 dot_S10000x256_S256x256_S10000x256_1_0_0_1_n_n 256 rfl rfl).symm c) = ix2 c f := funext fun a => Fin.ext (by
    match a with
    | ⟨0, _⟩ => exact (rhs1_0 _ _).trans hc
    | ⟨1, _⟩ => exact rhs1_1 _ _)
  rw [el, er]
  refine congrArg₂ (· * ·) ?_ (truncf_apply (φ := .f32) (ψ := .bf16) W bitsLt_bf16_f32 (ix2 c f))
  refine (transpose_apply [1, 0] _ transposes_S256x10000_p1_0_S10000x256 (ix2 k c) (ix2 c k) (fun b => match b with
    | ⟨0, _⟩ => rfl
    | ⟨1, _⟩ => rfl)).trans ?_
  exact truncf_apply (φ := .f32) (ψ := .bf16) X bitsLt_bf16_f32 (ix2 c k)

/-- The value stored into the output block, at (feature `f`, row `r` of the adjacency block): row `r` of the block
    against column `f` of the scratch, plus the bias at `f`. It reads row `r` of the block and no other. -/
theorem pay2_apply (A : Vec Ideal S256x10000 .f32) (S : Vec Ideal S10000x256 .bf16) (b : Vec Ideal S1x256 .f32) (f : Fin 256) (r : Fin 256) :
    k0_pay2 (F := Ideal) A S b (ix2 f r) = (∑ k : Fin 10000, A (ix2 r k) * S (ix2 k f)) + b (ix2 (0 : Fin 1) f) := by
  unfold k0_pay2
  refine (transpose_apply [1, 0] _ transposes_S256x256_p1_0_S256x256 (ix2 f r) (ix2 r f) (fun a => match a with
    | ⟨0, _⟩ => rfl
    | ⟨1, _⟩ => rfl)).trans ?_
  refine (addf_apply (φ := .f32) _ _ (ix2 r f)).trans ?_
  refine congrArg₂ (· + ·) ?_ ?_
  · simp only [matmul]
    refine (Ideal.matmul_constant_zero_apply (φ₁ := .bf16) (φ₂ := .bf16) dot_S256x10000_S10000x256_S256x256_1_0_0_1_n_n none (truncf .bf16 A bitsLt_bf16_f32) S (ix2 r f)).trans ?_
    rw [← Equiv.sum_comp (contrEquiv1 dot_S256x10000_S10000x256_S256x256_1_0_0_1_n_n 10000 rfl rfl).symm]
    refine Finset.sum_congr rfl fun k _ => ?_
    have hk := contrEquiv1_symm_val dot_S256x10000_S10000x256_S256x256_1_0_0_1_n_n 10000 rfl rfl k
    have el : dot_S256x10000_S10000x256_S256x256_1_0_0_1_n_n.lhsIdx (ix2 r f) ((contrEquiv1 dot_S256x10000_S10000x256_S256x256_1_0_0_1_n_n 10000 rfl rfl).symm k) = ix2 r k := funext fun a => Fin.ext (by
      match a with
      | ⟨0, _⟩ => exact lhs2_0 _ _
      | ⟨1, _⟩ => exact (lhs2_1 _ _).trans hk)
    have er : dot_S256x10000_S10000x256_S256x256_1_0_0_1_n_n.rhsIdx (ix2 r f) ((contrEquiv1 dot_S256x10000_S10000x256_S256x256_1_0_0_1_n_n 10000 rfl rfl).symm k) = ix2 k f := funext fun a => Fin.ext (by
      match a with
      | ⟨0, _⟩ => exact (rhs2_0 _ _).trans hk
      | ⟨1, _⟩ => exact rhs2_1 _ _)
    rw [el, er]
    exact congrArg (· * S (ix2 k f)) (truncf_apply (φ := .f32) (ψ := .bf16) A bitsLt_bf16_f32 (ix2 r k))
  · rw [shapeCast_self]
    exact broadcastTo_apply b broadcasts_S1x256_S256x256 (ix2 r f) (ix2 (0 : Fin 1) f) (fun a => match a with
      | ⟨0, _⟩ => by show 0 = if (1 : Nat) = 1 then 0 else _; rw [if_pos rfl]
      | ⟨1, _⟩ => by show f.val = if (256 : Nat) = 1 then 0 else f.val; rw [if_neg (by decide)])

end Cert.KernelIdeal.PayAt

end
-- ==== Proof.Blocks.lean ====
/-
  Where the two clipped windows sit in their arrays: the adjacency window (row blocks of 256 over 10000 rows) and
  the result window (column blocks of 256 over 10000 columns). The last of the forty blocks overhangs its array by
  240 rows (columns); a transfer moves only the sixteen that are inside.
-/
import proofs.«108030_g77214922048112_cont_9to1_m_162_6_alg».proof.Proof.Gen.KernelIdeal.Launch
import proofs.«108030_g77214922048112_cont_9to1_m_162_6_alg».proof.Proof.Gen.KernelIdeal.Points
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.ShloMosaic.Pipeline (Window)

variable {Val : EltTy → Type}

/-- The grid has forty points. -/
theorem N40 : cfg0.N = 40 := by decide +kernel

theorem lt40 (t : Fin cfg0.N) : t.val < 40 := lt_of_lt_of_eq t.isLt N40

/-- The result window at point `t`, decided over the forty points: its block sits at block index `(0, t)`, keeps all
    256 rows, and is cut to the `min 256 (10000 - 256 t)` columns that lie inside the array. -/
theorem facts4 : ∀ t : Fin cfg0.N, win0_4.xsize (grid0.coords t) 1 = min 256 (10000 - t.val * 256) ∧ win0_4.xsize (grid0.coords t) 0 = 256 ∧ win0_4.index t 0 = 0 ∧ win0_4.index t 1 = t.val :=
  (by decide +kernel : ∀ t : Fin grid0.N, win0_4.xsize (grid0.coords t) 1 = min 256 (10000 - t.val * 256) ∧ win0_4.xsize (grid0.coords t) 0 = 256 ∧ win0_4.index t 0 = 0 ∧ win0_4.index t 1 = t.val)

/-- The adjacency window at point `t`, decided over the forty points: its block sits at block index `(t, 0)`, keeps all
    10000 columns, and is cut to the `min 256 (10000 - 256 t)` rows that lie inside the array. -/
theorem facts2 : ∀ t : Fin cfg0.N, win0_2.xsize (grid0.coords t) 0 = min 256 (10000 - t.val * 256) ∧ win0_2.xsize (grid0.coords t) 1 = 10000 ∧ win0_2.index t 1 = 0 ∧ win0_2.index t 0 = t.val :=
  (by decide +kernel : ∀ t : Fin grid0.N, win0_2.xsize (grid0.coords t) 0 = min 256 (10000 - t.val * 256) ∧ win0_2.xsize (grid0.coords t) 1 = 10000 ∧ win0_2.index t 1 = 0 ∧ win0_2.index t 0 = t.val)

/-- An index of the part of the result block that point `t` writes back has its column inside the array. -/
theorem col_inside (t : Fin cfg0.N) (j : (win0_4.xblock (grid0.coords t)).Idx) : t.val * 256 + (j 1).val < 10000 := by
  -- the column is below the block's cut width, min 256 (10000 - 256 t)
  have h : (j 1).val < win0_4.xsize (grid0.coords t) 1 := (j 1).isLt
  have hN := lt40 t
  rw [(facts4 t).1] at h
  omega

/-- The adjacency window's staging buffer after the fetch at point `t`, at a row of the block that lies inside the
    array: the array's entry there, whatever the buffer held before. -/
theorem fill_adj_inside (t : Fin cfg0.N) (d : win0_2.block.Idx → Val .f32) (A : S10000x10000.Idx → Val .f32)
    (r : Fin 256) (k : Fin 10000) (hr : t.val * 256 + r.val < 10000) :
    win0_2.fill (grid0.coords t) d ((win0_2.blk t).view.read Val A) (ix2 r k) = A (ix2 ⟨t.val * 256 + r.val, hr⟩ k) := by
  obtain ⟨f0, f1, f2, f3⟩ := facts2 t
  -- row r is among the block's rows inside the array, so the fetch moves (r, k)
  have hm : win0_2.moved (grid0.coords t) (ix2 r k) = true := by
    rw [Window.moved_iff]
    intro a
    match a with
    | ⟨0, _⟩ => show r.val < win0_2.xsize (grid0.coords t) 0; rw [f0]; have := r.isLt; omega
    | ⟨1, _⟩ => show k.val < win0_2.xsize (grid0.coords t) 1; rw [f1]; exact k.isLt
  unfold Window.fill
  rw [dif_pos hm]
  -- the block's element (r, k) sits in the array at (256 t + r, 0 + k)
  show A ((win0_2.rect t).emb _) = A (ix2 ⟨t.val * 256 + r.val, hr⟩ k)
  refine congrArg A (Shape.idx_ext₂ ?_ ?_)
  · refine (win0_2.rect_emb_val t _ 0).trans ?_
    show win0_2.index t 0 * 256 + r.val = t.val * 256 + r.val
    rw [f3]
  · refine (win0_2.rect_emb_val t _ 1).trans ?_
    show win0_2.index t 1 * 10000 + k.val = k.val
    rw [f2]; omega

/-- What point `t` writes back of block contents `X` is block `t` of an array `G`, as soon as `X` agrees with `G` on
    the columns of the block that lie inside the array. -/
theorem cut_out_eq_read (t : Fin cfg0.N) (X : win0_4.block.Idx → Val .f32) (G : S256x10000.Idx → Val .f32)
    (h : ∀ (f r : Fin 256) (hr : t.val * 256 + r.val < 10000), X (ix2 f r) = G (ix2 f ⟨t.val * 256 + r.val, hr⟩)) :
    win0_4.cut (grid0.coords t) X = (win0_4.blk t).view.read Val G := by
  obtain ⟨f1, f0, g0, g1⟩ := facts4 t
  funext j
  have h0 : (j 0).val < 256 := by
    have := (j 0).isLt
    change (j 0).val < win0_4.xsize (grid0.coords t) 0 at this
    rw [f0] at this; exact this
  have h1 : (j 1).val < 256 := by
    have := (j 1).isLt
    change (j 1).val < win0_4.xsize (grid0.coords t) 1 at this
    rw [f1] at this; omega
  have hc := col_inside t j
  -- the written-back index j is the block's index (j 0, j 1), which sits in the array at (0 + j 0, 256 t + j 1)
  have e1 : win0_4.xinj (grid0.coords t) j = ix2 ⟨(j 0).val, h0⟩ ⟨(j 1).val, h1⟩ := Shape.idx_ext₂ rfl rfl
  show X (win0_4.xinj (grid0.coords t) j) = G ((win0_4.rect t).emb j)
  rw [e1, h ⟨(j 0).val, h0⟩ ⟨(j 1).val, h1⟩ hc]
  refine congrArg G (Shape.idx_ext₂ ?_ ?_)
  · refine Eq.trans ?_ (win0_4.rect_emb_val t j 0).symm
    show (j 0).val = win0_4.index t 0 * 256 + (j 0).val
    rw [g0]; omega
  · refine Eq.trans ?_ (win0_4.rect_emb_val t j 1).symm
    show t.val * 256 + (j 1).val = win0_4.index t 1 * 256 + (j 1).val
    rw [g1]

/-- Every entry of the result array lies in the block some point writes back. -/
theorem out_cover (i : S256x10000.Idx) : ∃ t : Fin cfg0.N, (cfg0.win 4).flush t = true ∧ i ∈ ((cfg0.win 4).blk t).view.set := by
  have hi0 : (i 0).val < 256 := idx2_lt0 i
  have hi1 : (i 1).val < 10000 := idx2_lt1 i
  -- the point covering column n is n / 256
  have ht : (i 1).val / 256 < cfg0.N := by rw [N40]; omega
  refine ⟨⟨(i 1).val / 256, ht⟩, flush0_4 _, ?_⟩
  obtain ⟨f1, f0, g0, g1⟩ := facts4 ⟨(i 1).val / 256, ht⟩
  show i ∈ ((View.whole main_v1).slice (win0_4.rect ⟨(i 1).val / 256, ht⟩)).set
  rw [View.set_slice_whole, Rect.mem_set_unit]
  refine Fin.forall_fin_two.mpr ⟨?_, ?_⟩
  · show win0_4.index ⟨(i 1).val / 256, ht⟩ 0 * 256 ≤ (i 0).val
      ∧ (i 0).val < win0_4.index ⟨(i 1).val / 256, ht⟩ 0 * 256 + win0_4.xsize (grid0.coords ⟨(i 1).val / 256, ht⟩) 0
    rw [g0, f0]; omega
  · show win0_4.index ⟨(i 1).val / 256, ht⟩ 1 * 256 ≤ (i 1).val
      ∧ (i 1).val < win0_4.index ⟨(i 1).val / 256, ht⟩ 1 * 256 + win0_4.xsize (grid0.coords ⟨(i 1).val / 256, ht⟩) 1
    rw [g1, f1]
    show (i 1).val / 256 * 256 ≤ (i 1).val ∧ (i 1).val < (i 1).val / 256 * 256 + min 256 (10000 - (i 1).val / 256 * 256)
    omega

end Cert.KernelIdeal.Blocks

end
-- ==== Proof.WholeBlocks.lean ====
/-
  The three windows whose one block is their whole array (features, weights, bias row), and the bias row as the
  host's reshape of the bias vector: what the kernel body loads from them, as entries of the argument arrays.
-/
import proofs.«108030_g77214922048112_cont_9to1_m_162_6_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The feature window's index map is constantly zero on both axes. -/
theorem idx0 (t : Fin cfg0.N) (a : Fin 2) : win0_0.index t a = 0 := by
  fin_cases a <;> rfl

/-- The weight window's index map is constantly zero on both axes. -/
theorem idx1 (t : Fin cfg0.N) (a : Fin 2) : win0_1.index t a = 0 := by
  fin_cases a <;> rfl

/-- The bias window's index map is constantly zero on both axes. -/
theorem idx3 (t : Fin cfg0.N) (a : Fin 2) : win0_3.index t a = 0 := by
  fin_cases a <;> rfl

/-- The feature window's block, at every point, is the feature array. -/
theorem iblk0_eq (c : Dev nD) (t : Fin cfg0.N) : (iblk m c 0 t : S256x10000.Idx → Elt F .f32) = m ((c : Thread nD τ).loc main_arg0) := by
  unfold iblk
  funext y
  show V m c main_arg0 ((win0_0.blk t).view.emb y) = _
  rw [V_main_arg0]
  -- at block index zero an element of the block has the same coordinates in the array
  exact congrArg _ (funext fun a => Fin.ext (Pipeline.Window.rect_emb_val_of_index_zero win0_0 t a (idx0 t a) y))

/-- The weight window's block, at every point, is the weight array. -/
theorem iblk1_eq (c : Dev nD) (t : Fin cfg0.N) : (iblk m c 1 t : S256x256.Idx → Elt F .f32) = m ((c : Thread nD τ).loc main_arg2) := by
  unfold iblk
  funext y
  show V m c main_arg2 ((win0_1.blk t).view.emb y) = _
  rw [V_main_arg2]
  exact congrArg _ (funext fun a => Fin.ext (Pipeline.Window.rect_emb_val_of_index_zero win0_1 t a (idx1 t a) y))

/-- The bias window's block, at every point and feature `f`, is the bias vector's entry `f` (the array the window
    stages is the host's reshape of the bias vector to one row). -/
theorem iblk3_apply (c : Dev nD) (t : Fin cfg0.N) (f : Fin 256) :
    (iblk m c 3 t : S1x256.Idx → Elt F .f32) (ix2 (0 : Fin 1) f) = m ((c : Thread nD τ).loc main_arg3) (ix1 f) := by
  -- the one-row array is the bias vector recast to one row
  have e : (V m c main_v0 : S1x256.Idx → Elt F .f32)
      = shapeCast S1x256 (m ((c : Thread nD τ).loc main_arg3) : S256.Idx → Elt F .f32) shapeCasts_S256_S1x256 := by
    dsimp only [Gen.V, Gen.hostOps0]; after_results; rfl
  -- the window's one block is the whole one-row array
  have hb : (iblk m c 3 t : S1x256.Idx → Elt F .f32) = V m c main_v0 := by
    unfold iblk; funext y
    show V m c main_v0 ((win0_3.blk t).view.emb y) = _
    exact congrArg _ (funext fun a => Fin.ext (Pipeline.Window.rect_emb_val_of_index_zero win0_3 t a (idx3 t a) y))
  rw [hb, e]
  -- entry (0, f) of the row and entry f of the vector have the same row-major position: 0 * 256 + f = f
  refine shapeCast_apply _ _ _ (ix1 f) ?_
  rw [Shape.rowMajor_val_two, Shape.rowMajor_val_one]
  show f.val = 0 * 256 + f.val
  omega

/-- The adjacency window's block at point `t` is the adjacency array read through the window's rectangle there. -/
theorem iblk2_eq (c : Dev nD) (t : Fin cfg0.N) :
    iblk m c 2 t = (win0_2.blk t).view.read (Elt F) (m ((c : Thread nD τ).loc main_arg1) : S10000x10000.Idx → Elt F .f32) := by
  unfold iblk
  show (win0_2.blk t).view.read (Elt F) (V m c main_arg1) = _
  rw [V_main_arg1]

end Cert.KernelIdeal.Whole

end
-- ==== Proof.Spec.lean ====
/-
  Graph convolution over the extended reals, as one function of the four argument arrays.

  With features `x : 256 × 10000` (channel by node), adjacency `adj : 10000 × 10000`, weights `w : 256 × 256`
  (input channel by output feature) and a bias row `b : 256`, the result at (feature `f`, node `n`) is

      ( Σ_k adj(n, k) · support(k, f) ) + b(f),      support(k, f) = Σ_c x(c, k) · w(c, f).

  Both programs compute the inner sum first and the outer sum over it, so no law beyond the definitions of the
  two sums is needed to identify them: nothing is distributed, regrouped or cancelled, and the statement holds
  at every extended real (infinite entries included).
-/
import Idealize.ShloMosaic.PureOps.Ideal
import Idealize.ShloMosaic.Lib.ValueIdx

noncomputable section

namespace Cert.GraphConv

open Idealize.ShloMosaic Idealize.ShloMosaic.ValueIdx

/-- The product of the transposed features with the weights: node `k`, output feature `f`. -/
def support (x : FVec Ideal ⟨2, ![256, 10000]⟩ .f32) (w : FVec Ideal ⟨2, ![256, 256]⟩ .f32) (k : Fin 10000) (f : Fin 256) : EReal :=
  ∑ c : Fin 256, x (ix2 c k) * w (ix2 c f)

/-- The adjacency applied to the support, one entry: node `n`, output feature `f`, before the bias. -/
def aggregate (x : FVec Ideal ⟨2, ![256, 10000]⟩ .f32) (adj : FVec Ideal ⟨2, ![10000, 10000]⟩ .f32)
    (w : FVec Ideal ⟨2, ![256, 256]⟩ .f32) (n : Fin 10000) (f : Fin 256) : EReal :=
  ∑ k : Fin 10000, adj (ix2 n k) * support x w k f

/-- The whole result, feature by node. -/
def conv (x : FVec Ideal ⟨2, ![256, 10000]⟩ .f32) (adj : FVec Ideal ⟨2, ![10000, 10000]⟩ .f32)
    (w : FVec Ideal ⟨2, ![256, 256]⟩ .f32) (b : FVec Ideal ⟨1, ![256]⟩ .f32) : FVec Ideal ⟨2, ![256, 10000]⟩ .f32 :=
  fun i => aggregate x adj w (i 1) (i 0) + b (ix1 (i 0))

theorem conv_apply (x : FVec Ideal ⟨2, ![256, 10000]⟩ .f32) (adj : FVec Ideal ⟨2, ![10000, 10000]⟩ .f32)
    (w : FVec Ideal ⟨2, ![256, 256]⟩ .f32) (b : FVec Ideal ⟨1, ![256]⟩ .f32) (f : Fin 256) (n : Fin 10000) :
    conv x adj w b (ix2 f n) = aggregate x adj w n f + b (ix1 f) := rfl

end Cert.GraphConv

end
-- ==== Proof.FrameIdeal.lean ====
/-
  The idealized program: its frame, and its result array in closed form.

  The pipeline runs the body at forty points. The features, the weights and the bias row are whole-array windows
  fetched once; the adjacency is fetched in row blocks of 256, the last of which has only sixteen rows inside the
  array (what the fetch leaves in the other 240 rows of the buffer is not known); the result is written back in column
  blocks of 256, of the last of which only sixteen columns are written. The scratch buffer is overwritten at the first
  point with support(k, f) = Σ_c x(c, k) · w(c, f) and only read afterwards, so between points it holds that product.

  At point t the body leaves in the output buffer, at (feature f, column r),
      Σ_k A_t(r, k) · support(k, f) + b(f),
  where A_t is the adjacency buffer. Column r of the output reads row r of A_t and no other; a column that is written
  back lies inside the array, and so does the row it reads, where A_t holds adj(256 t + r, k). Hence the part of the
  output block that is written back does not depend on the unknown rows, and it is block t of the graph convolution.
  The forty blocks cover the result array.
-/
import proofs.«108030_g77214922048112_cont_9to1_m_162_6_alg».proof.Proof.BodyRun
import proofs.«108030_g77214922048112_cont_9to1_m_162_6_alg».proof.Proof.PayAt
import proofs.«108030_g77214922048112_cont_9to1_m_162_6_alg».proof.Proof.Blocks
import proofs.«108030_g77214922048112_cont_9to1_m_162_6_alg».proof.Proof.WholeBlocks
import Idealize.ShloMosaic.Lib.ValueIdx
import proofs.«108030_g77214922048112_cont_9to1_m_162_6_alg».proof.Proof.Spec

set_option maxRecDepth 16384

noncomputable section

namespace Cert.KernelIdeal.Exact

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The grid's first point. -/
abbrev t0 : Fin cfg0.N := ⟨0, by decide⟩

/-- The blocks the body loads, at their literal types. -/
abbrev featBlk (c : Dev nD) (t : Fin cfg0.N) : Vec Ideal S256x10000 .f32 := iblk m c 0 t
abbrev wtBlk (c : Dev nD) (t : Fin cfg0.N) : Vec Ideal S256x256 .f32 := iblk m c 1 t
abbrev biasBlk (c : Dev nD) (t : Fin cfg0.N) : Vec Ideal S1x256 .f32 := iblk m c 3 t

/-- The adjacency buffer after the fetch at point `t`, with the rows past the array's end (the last point has 240)
    filled with zero: a representative — the rows inside the array are all that matter below. -/
def adjBuf (c : Dev nD) (t : Fin cfg0.N) : Vec Ideal S256x10000 .f32 :=
  win0_2.fill (grid0.coords t) (fun _ => (0 : EReal)) (iblk m c 2 t)

/-- What the scratch holds from the first point on: transposed features times weights. -/
def carried (c : Dev nD) : Vec Ideal S10000x256 .bf16 := k0_pay1 (featBlk m c t0) (wtBlk m c t0)

/-- What the output buffer holds after point `t` (on the columns inside the array). -/
def outBuf (c : Dev nD) (t : Fin cfg0.N) : Vec Ideal S256x256 .f32 := k0_pay2 (adjBuf m c t) (carried m c) (biasBlk m c t)

/-- The scratch operand, a whole scoped buffer. -/
abbrev scM : Memref sig .tc .vmem S10000x256 .bf16 := Memref.whole cc0_scratch0

/-- The invariant between points: before the first point the scratch holds anything; afterwards the product. -/
def PhiS (c : Dev nD) : ℕ → sProp 𝕄
  | 0 => Pipeline.ΦA spec0 c
  | _ + 1 => iprop(owns (c : Thread nD τ) scM fullShare (carried m c) ∗ (∃ r, prngReg c r))

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data: the arrays as the region finds them; after the body each input buffer at its block (the adjacency
    one at its representative), the output buffer at `outBuf`; the invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBuf m c t
    | ⟨3, _⟩ => iblk m c 3 t
    | ⟨4, _⟩ => outBuf m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = adjBuf m c t := by dsimp only [dats]
theorem after3 (c : Dev nD) (t : Fin cfg0.N) : (dats m 0 c).after 3 t = iblk m c 3 t := by dsimp only [dats]
theorem after4 (c : Dev nD) (t : Fin cfg0.N) : (dats m 0 c).after 4 t = outBuf m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before3 (c : Dev nD) (t : Fin cfg0.N) (d) : (dats m 0 c).before 3 t d = iblk m c 3 t :=
  before0_3_of m (dats m 0 c) (A_eq m c 3) (after3 m c) t d
/-- The adjacency buffer is fetched at every point: the block inside the array, anything past its end. -/
theorem before2 (c : Dev nD) (t : Fin cfg0.N) (d) :
    (dats m 0 c).before 2 t d = win0_2.fill (grid0.coords t) d (iblk m c 2 t) := by
  rw [(dats m 0 c).before_fetched 2 t (fetch0_2 t) d]; unfold Dat.fetched Dat.blockOf iblk; rw [A_eq]

/-- The branch is taken at the first point and nowhere else: decided over the forty points. -/
theorem hcond : ∀ t : Fin cfg0.N, condFirst (grid0.coords t) ↔ t.val = 0 :=
  (by decide +kernel : ∀ t : Fin grid0.N, condFirst (grid0.coords t) ↔ t.val = 0)

/-- The value the body stores into the output buffer reads row `r` of the adjacency buffer only at column `r` of the
    result; a column inside the array reads a row inside the array, where the buffer holds the array's entry whatever
    was in it before the fetch. So on the part written back, the stored block does not depend on what the fetch left
    past the array's end. -/
theorem cut_out_indep (c : Dev nD) (t : Fin cfg0.N) (d d' : win0_2.block.Idx → Elt Ideal .f32)
    (S : Vec Ideal S10000x256 .bf16) (b : Vec Ideal S1x256 .f32) :
    win0_4.cut (grid0.coords t) (k0_pay2 (F := Ideal) (win0_2.fill (grid0.coords t) d (iblk m c 2 t)) S b)
      = win0_4.cut (grid0.coords t) (k0_pay2 (F := Ideal) (win0_2.fill (grid0.coords t) d' (iblk m c 2 t)) S b) := by
  funext j
  have hj := Blocks.col_inside t j
  show k0_pay2 (F := Ideal) _ S b (win0_4.xinj (grid0.coords t) j) = k0_pay2 (F := Ideal) _ S b (win0_4.xinj (grid0.coords t) j)
  obtain ⟨f, r, hfr⟩ : ∃ (f r : Fin 256), win0_4.xinj (grid0.coords t) j = ix2 f r :=
    ⟨win0_4.xinj (grid0.coords t) j 0, win0_4.xinj (grid0.coords t) j 1, eq_ix2 _⟩
  have hr : t.val * 256 + r.val < 10000 := by
    have e : win0_4.xinj (grid0.coords t) j 1 = r := by rw [hfr]; rfl
    rw [← e]; exact hj
  rw [hfr, PayAt.pay2_apply, PayAt.pay2_apply]
  refine congrArg (· + b (ix2 (0 : Fin 1) f)) (Finset.sum_congr rfl fun k _ => ?_)
  rw [Whole.iblk2_eq, Blocks.fill_adj_inside t d _ r k hr, Blocks.fill_adj_inside t d' _ r k hr]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stage0_0 (cfg0.slots t 0)) fullShare ((dats m 0 c).before 0 t d))
    ∗ (∃ d, owns (c : Thread nD τ) (stage0_1 (cfg0.slots t 1)) fullShare ((dats m 0 c).before 1 t d))
    ∗ (∃ d, owns (c : Thread nD τ) (stage0_2 (cfg0.slots t 2)) fullShare ((dats m 0 c).before 2 t d))
    ∗ (∃ d, owns (c : Thread nD τ) (stage0_3 (cfg0.slots t 3)) fullShare ((dats m 0 c).before 3 t d))
    ∗ (∃ d, owns (c : Thread nD τ) (stage0_4 (cfg0.slots t 4)) fullShare ((dats m 0 c).before 4 t d)))

/-- and what it returns: the two clipped windows' buffers stated on the part their transfers move. -/
def bodyPost (c : Dev nD) (t : Fin cfg0.N) : sProp 𝕄 :=
  iprop((dats m 0 c).Φ t.succ ∗ (dats m 0 c).owesAt () t.succ
    ∗ owns (c : Thread nD τ) (stage0_0 (cfg0.slots t 0)) fullShare ((dats m 0 c).after 0 t)
    ∗ owns (c : Thread nD τ) (stage0_1 (cfg0.slots t 1)) fullShare ((dats m 0 c).after 1 t)
    ∗ (∃ d, owns (c : Thread nD τ) (stage0_2 (cfg0.slots t 2)) fullShare
        (win0_2.fill (grid0.coords t) d (win0_2.cut (grid0.coords t) ((dats m 0 c).after 2 t))))
    ∗ owns (c : Thread nD τ) (stage0_3 (cfg0.slots t 3)) fullShare ((dats m 0 c).after 3 t)
    ∗ (∃ d, owns (c : Thread nD τ) (stage0_4 (cfg0.slots t 4)) fullShare
        (win0_4.fill (grid0.coords t) d (win0_4.cut (grid0.coords t) ((dats m 0 c).after 4 t)))))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [after0, after1, after2, after3, after4]
  rw [show (dats m 0 c).owesAt () t.succ = (dats m 0 c).owesAt () t.castSucc from rfl]
  rw [show (dats m 0 c).Φ t.succ = iprop(owns (c : Thread nD τ) scM fullShare (carried m c) ∗ (∃ r, prngReg c r)) from rfl]
  -- what the two clipped buffers are handed back at: any contents that agree with the named ones on the moved part
  have h2 : ∀ d2, win0_2.fill (grid0.coords t) d2 (win0_2.cut (grid0.coords t) (adjBuf m c t))
      = win0_2.fill (grid0.coords t) d2 (iblk m c 2 t) := fun d2 => by
    unfold adjBuf; rw [Window.cut_fill]
  have h4 : ∀ d2, win0_4.fill (grid0.coords t)
        (k0_pay2 (F := Ideal) (win0_2.fill (grid0.coords t) d2 (iblk m c 2 t)) (carried m c) (biasBlk m c t))
        (win0_4.cut (grid0.coords t) (outBuf m c t))
      = k0_pay2 (F := Ideal) (win0_2.fill (grid0.coords t) d2 (iblk m c 2 t)) (carried m c) (biasBlk m c t) := fun d2 =>
    Window.fill_congr_cut _ _ (by unfold outBuf adjBuf; exact cut_out_indep m c t _ _ _ _)
  by_cases hz : t.val = 0
  · have ht : t = t0 := Fin.ext hz
    rw [show (dats m 0 c).Φ t.castSucc = Pipeline.ΦA spec0 c from by
      show PhiS m c t.castSucc.val = _; rw [Fin.coe_castSucc, hz]; rfl, PhiA_eq]
    iintro ⟨⟨⟨%ds, HS⟩, Hg⟩, Ho, ⟨%d0, H0⟩, ⟨%d1, H1⟩, ⟨%d2, H2⟩, ⟨%d3, H3⟩, ⟨%d4, H4⟩⟩
    iapply (body_first (F := Ideal) c (grid0.coords t) ((hcond t).mpr hz) _ _ _ _ _ _ _ _ _ _ scM (Memref.isWhole_whole _)
      (featBlk m c t) (wtBlk m c t) (win0_2.fill (grid0.coords t) d2 (iblk m c 2 t)) (biasBlk m c t) ((dats m 0 c).before 4 t d4) ds Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · unfold carried; rw [← ht]; iexact HS
      · iexact Hg
    isplitl [Ho]; · iexact Ho
    isplitl [H0]; · iexact H0
    isplitl [H1]; · iexact H1
    isplitl [H2]; · iexists d2; rw [h2 d2]; iexact H2
    isplitl [H3]; · iexact H3
    iexists _
    rw [h4 d2]
    unfold carried; rw [← ht]; iexact H4
  · rw [show (dats m 0 c).Φ t.castSucc = iprop(owns (c : Thread nD τ) scM fullShare (carried m c) ∗ (∃ r, prngReg c r)) from by
      show PhiS m c t.castSucc.val = _; rw [Fin.coe_castSucc]
      obtain ⟨n, hn⟩ : ∃ n, t.val = n + 1 := ⟨t.val - 1, by omega⟩
      rw [hn]; rfl]
    iintro ⟨⟨HS, Hg⟩, Ho, ⟨%d0, H0⟩, ⟨%d1, H1⟩, ⟨%d2, H2⟩, ⟨%d3, H3⟩, ⟨%d4, H4⟩⟩
    iapply (body_rest (F := Ideal) c (grid0.coords t) (fun h => hz ((hcond t).mp h)) _ _ _ _ _ _ _ _ _ _ scM (Memref.isWhole_whole _)
      (featBlk m c t) (wtBlk m c t) (win0_2.fill (grid0.coords t) d2 (iblk m c 2 t)) (biasBlk m c t) ((dats m 0 c).before 4 t d4) (carried m c) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexact HS
      · iexact Hg
    isplitl [Ho]; · iexact Ho
    isplitl [H0]; · iexact H0
    isplitl [H1]; · iexact H1
    isplitl [H2]; · iexists d2; rw [h2 d2]; iexact H2
    isplitl [H3]; · iexact H3
    iexists _
    rw [h4 d2]
    iexact H4

/-- The body obligation at every point, in the form the pipeline's loop uses. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = iprop(owns (c : Thread nD τ) scM fullShare (carried m c) ∗ (∃ r, prngReg c r)) from by
    show PhiS m c (Fin.last cfg0.N).val = _
    rw [Fin.val_last, show cfg0.N = 39 + 1 from by decide]; rfl, PhiA_eq]
  iintro ⟨HS, Hg⟩
  isplitl [HS]
  · iexists _; iexact HS
  iexact Hg

set_option backward.isDefEq.respectTransparency.types false in
/-- Every weakly fair execution of @main terminates, each array of the pipeline ending at what the write-backs of
    the proof data leave and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the program runs and its four arguments end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result array -/

/-- The graph convolution of the four argument arrays as the program finds them. -/
def result (c : Dev nD) : S256x10000.Idx → Elt Ideal .f32 :=
  Cert.GraphConv.conv (m ((c : Thread nD τ).loc main_arg0)) (m ((c : Thread nD τ).loc main_arg1))
    (m ((c : Thread nD τ).loc main_arg2)) (m ((c : Thread nD τ).loc main_arg3))

/-- What point `t` writes back is block `t` of the convolution: at (feature `f`, column `r` inside the array) the
    stored value is row `r` of the adjacency block — row `256 t + r` of the adjacency — against column `f` of the
    scratch — the support's column `f` —, plus the bias at `f`. -/
theorem flushed_eq (c : Dev nD) (t : Fin cfg0.N) :
    (dats m 0 c).flushed 4 t = ((cfg0.win 4).blk t).view.read (Elt Ideal) (result m c) := by
  show win0_4.cut (grid0.coords t) ((dats m 0 c).after 4 t) = _
  rw [after4]
  refine Blocks.cut_out_eq_read t (outBuf m c t) (result m c) fun f r hr => ?_
  unfold outBuf
  rw [PayAt.pay2_apply]
  unfold result; rw [Cert.GraphConv.conv_apply]
  refine congrArg₂ (· + ·) ?_ (Whole.iblk3_apply m c t f)
  unfold Cert.GraphConv.aggregate
  refine Finset.sum_congr rfl fun k _ => ?_
  refine congrArg₂ (· * ·) ?_ ?_
  · unfold adjBuf; rw [Whole.iblk2_eq]
    exact Blocks.fill_adj_inside (Val := Elt Ideal) t _ _ r k hr
  · unfold carried; rw [PayAt.pay1_apply]; unfold Cert.GraphConv.support
    rw [show featBlk m c t0 = m ((c : Thread nD τ).loc main_arg0) from Whole.iblk0_eq m c t0,
      show wtBlk m c t0 = m ((c : Thread nD τ).loc main_arg2) from Whole.iblk1_eq m c t0]

/-- The result array after the run is the convolution: every column lies in some point's block. -/
theorem final (c : Dev nD) : (dats m 0 c).arrAt 4 cfg0.N = result m c :=
  (dats m 0 c).arrAt_eq_of_cover 4 (result m c) (fun t _ => flushed_eq m c t) Blocks.out_cover

/-- The run with the result named. -/
theorem run_value : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩) (run_main m ρ)

end Cert.KernelIdeal.Exact
end
-- ==== Proof.RefIsSpec.lean ====
/-
  The reference's result, operation by operation, is the graph convolution of its four arguments.
-/
import proofs.«108030_g77214922048112_cont_9to1_m_162_6_alg».proof.Proof.Gen.ReferenceIdeal.Run
import proofs.«108030_g77214922048112_cont_9to1_m_162_6_alg».proof.Proof.Gen.ReferenceIdeal.Read
import proofs.«108030_g77214922048112_cont_9to1_m_162_6_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

theorem ref_eq (x0 : (⟨S256x10000, .f32⟩ : BufTy).Contents (Elt Ideal)) (x1 : (⟨S10000x10000, .f32⟩ : BufTy).Contents (Elt Ideal))
    (x2 : (⟨S256x256, .f32⟩ : BufTy).Contents (Elt Ideal)) (x3 : (⟨S256, .f32⟩ : BufTy).Contents (Elt Ideal)) :
    val_main_v6 (F := Ideal) x0 x1 x2 x3 = Cert.GraphConv.conv x0 x1 x2 x3 := by
  funext i
  obtain ⟨f, n, rfl⟩ : ∃ (f : Fin 256) (n : Fin 10000), i = ix2 f n := ⟨i 0, i 1, eq_ix2 i⟩
  rw [val_main_v6_apply, val_main_v5_apply, val_main_v2_apply, val_main_v4_apply, val_main_v3_apply,
    Cert.GraphConv.conv_apply, Ideal.addf_def]
  unfold Cert.GraphConv.aggregate Cert.GraphConv.support
  -- the bias entry: both sides read the bias row at the feature
  have eb : idx_main_v3 (idx_main_v4 (idx_main_v6 (ix2 f n))) = ix1 f :=
    funext fun a => Fin.ext (by match a with | ⟨0, _⟩ => rfl)
  rw [eb]
  congr 1
  -- the outer sum over the nodes, term by term
  refine Finset.sum_congr rfl fun k _ => ?_
  have ea : lidx_main_v2 (idx_main_v6 (ix2 f n)) k = ix2 n k :=
    funext fun a => Fin.ext (by match a with | ⟨0, _⟩ => rfl | ⟨1, _⟩ => rfl)
  rw [ea, val_main_v1_apply]
  congr 1
  -- the inner sum over the input channels, term by term
  refine Finset.sum_congr rfl fun c _ => ?_
  have ex : idx_main_v0 (lidx_main_v1 (ridx_main_v2 (idx_main_v6 (ix2 f n)) k) c) = ix2 c k :=
    funext fun a => Fin.ext (by match a with | ⟨0, _⟩ => rfl | ⟨1, _⟩ => rfl)
  have ew : ridx_main_v1 (ridx_main_v2 (idx_main_v6 (ix2 f n)) k) c = ix2 c f :=
    funext fun a => Fin.ext (by match a with | ⟨0, _⟩ => rfl | ⟨1, _⟩ => rfl)
  rw [val_main_v0_apply, ex, ew]

end Cert.ReferenceIdeal.RefValue

end
-- ==== Proof.lean ====
/-
  A fused graph-convolution kernel against its reference, over the extended reals.

  With features x (256 channels × 10000 nodes), adjacency adj (10000 × 10000), weights w (256 × 256) and bias b (256),
  both programs compute, at (output feature f, node n),

      ( Σ_k adj(n, k) · ( Σ_c x(c, k) · w(c, f) ) ) + b(f).

  The reference transposes the features, multiplies by the weights, multiplies the adjacency by that product, adds
  the bias row and transposes back. The kernel walks the adjacency in forty row blocks of 256: at the first block it
  stores the inner product (node by feature) in a scratch buffer; at every block it multiplies the block by the scratch,
  adds the bias row, and writes the transposed block into the result's columns. Both sides form the inner sum first
  and the outer sum over it, so the two results are the same expression entry by entry: no sum is regrouped and no
  factor moved, and the equality holds for all extended-real entries (the finiteness of the inputs is not used).
  The narrowing to sixteen-bit floats that the kernel applies to its operands is the identity over the reals.

  The last adjacency block has sixteen rows inside the array; the 240 buffer rows past the array's end hold unknown
  values, which reach only the 240 result columns past the result's end, and those are never written back.

  The frames: each program terminates without a fault and leaves its four arguments as they were — the kernels' by the
  pipeline's launch rule from the body's run at each point, the reference's from its run as a sequence of host
  operations. The word-level kernel's frame names nothing of the result; the idealized kernel's run also names the
  result array, which the last claim compares with the reference's.
-/
import proofs.«108030_g77214922048112_cont_9to1_m_162_6_alg».proof.Defs
import proofs.«108030_g77214922048112_cont_9to1_m_162_6_alg».proof.Proof.Gen.Kernel
import proofs.«108030_g77214922048112_cont_9to1_m_162_6_alg».proof.Proof.Gen.KernelIdeal
import proofs.«108030_g77214922048112_cont_9to1_m_162_6_alg».proof.Proof.Gen.ReferenceIdeal
import proofs.«108030_g77214922048112_cont_9to1_m_162_6_alg».proof.Proof.Gen.Pre_finite_inputs
import proofs.«108030_g77214922048112_cont_9to1_m_162_6_alg».proof.Proof.FrameBits
import proofs.«108030_g77214922048112_cont_9to1_m_162_6_alg».proof.Proof.FrameIdeal
import proofs.«108030_g77214922048112_cont_9to1_m_162_6_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Forget.frame (F := Bits) m ρ

theorem frame_kernelIdeal : Cert.frame_KernelIdeal := fun m ρ _ => Cert.KernelIdeal.Exact.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the graph convolution of the (agreeing) arguments in their result arrays. -/
theorem algebraic : Cert.algebraic_KernelIdeal_ReferenceIdeal := by
  intro m ρ m' ρ' _ hagree
  refine ⟨fun c => Cert.KernelIdeal.Exact.result m c, Cert.KernelIdeal.Exact.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
